-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S256x64 : Shape := ⟨2, ![256, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : FVec F S64x32 .f32) (main_arg5 : FVec F S32 .f32) (main_arg6 : FVec F S32x1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x1 .f32 := Host.absf main_arg6
  let main_cst_10 : FVec F S_ .f32 := constant S_ .f32 0x7F800000#32
  let main_v30 : FVec F S32x1 .f32 := broadcastInDim S32x1 ![] bcast_S_S32x1 main_cst_10
  let main_v31 : IVec S32x1 1 := cmpf .olt main_v29 main_v30
  let main_c_11 : IVec S_ 1 := constantI S_ 1 1#1
  let main_v32 : IVec S_ 1 := (fun x v => Host.reduce IntOp.andi x v reducesTo_S32x1_S_d0_1 h_S_) main_v31 main_c_11
  let main_v33 : IVec S_ 1 := andi main_v28 main_v32
  main_v33

def fn {F : FTy → Type} [FloatOps F] (main_arg0 : FVec F S16384x256 .f32) (main_arg1 : FVec F S256x64 .f32) (main_arg2 : FVec F S64x64 .f32) (main_arg3 : FVec F S64 .f32) (main_arg4 : FVec F S64x32 .f32) (main_arg5 : FVec F S32 .f32) (main_arg6 : FVec F S32x1 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x64 .f32 := Host.absf main_arg1
  let main_cst_0 : FVec F S_ .f32 := constant S_ .f32 0x7F800000#32
  let main_v5 : FVec F S256x64 .f32 := broadcastInDim S256x64 ![] bcast_S_S256x64 main_cst_0
  let main_v6 : IVec S256x64 1 := cmpf .olt main_v4 main_v5
  let main_c_1 : IVec S_ 1 := constantI S_ 1 1#1
  let main_v7 : IVec S_ 1 := (fun x v => Host.reduce IntOp.andi x v reducesTo_S256x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S16384x256 : Shape := ⟨2, ![16384, 256]⟩
abbrev S256x64 : Shape := ⟨2, ![256, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S64x1 : Shape := ⟨2, ![64, 1]⟩
abbrev S1x16384 : Shape := ⟨2, ![1, 16384]⟩
abbrev S4096x256 : Shape := ⟨2, ![4096, 256]⟩
abbrev S1x4096 : Shape := ⟨2, ![1, 4096]⟩
abbrev S64x4096 : Shape := ⟨2, ![64, 4096]⟩
abbrev S32x4096 : Shape := ⟨2, ![32, 4096]⟩
abbrev S16384x1 : Shape := ⟨2, ![16384, 1]⟩

abbrev nBuf : Space → Nat
  | .hbm => 11
  | .vmem => 10
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S64x1, .f32⟩
  | .hbm, ⟨8, _⟩ => ⟨S32x1, .f32⟩
  | .hbm, ⟨9, _⟩ => ⟨S1x16384, .f32⟩
  | .hbm, ⟨10, _⟩ => ⟨S16384x1, .f32⟩
  | .local _ .vmem, ⟨0, _⟩ => ⟨S4096x256, .f32⟩
  | .local _ .vmem, ⟨1, _⟩ => ⟨S4096x256, .f32⟩
  | .local _ .vmem, ⟨2, _⟩ => ⟨S256x64, .f32⟩
  | .local _ .vmem, ⟨3, _⟩ => ⟨S64x64, .f32⟩
  | .local _ .vmem, ⟨4, _⟩ => ⟨S64x1, .f32⟩
  | .local _ .vmem, ⟨5, _⟩ => ⟨S64x32, .f32⟩
  | .local _ .vmem, ⟨6, _⟩ => ⟨S32x1, .f32⟩
  | .local _ .vmem, ⟨7, _⟩ => ⟨S32x1, .f32⟩
  | .local _ .vmem, ⟨8, _⟩ => ⟨S1x4096, .f32⟩
  | .local _ .vmem, ⟨9, _⟩ => ⟨S1x4096, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S64_S64x1 : S64.ShapeCasts S64x1
  shapeCasts_S32_S32x1 : S32.ShapeCasts S32x1
  inb_S4096x256_S4096x256_0_0 : ∀ a, (![0, 0] : Fin 2 → Nat) a + S4096x256.size a ≤ S4096x256.size a
  h_S4096x256 : 0 < S4096x256.numel
  inb_S256x64_S256x64_0_0 : ∀ a, (![0, 0] : Fin 2 → Nat) a + S256x64.size a ≤ S256x64.size a
  h_S256x64 : 0 < S256x64.numel
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x4096 : S64x1.Broadcasts S64x4096
  inb_S64x32_S64x32_0_0 : ∀ a, (![0, 0] : Fin 2 → Nat) a + S64x32.size a ≤ S64x32.size a
  h_S64x32 : 0 < S64x32.numel
  inb_S32x1_S32x1_0_0 : ∀ a, (![0, 0] : Fin 2 → Nat) a + S32x1.size a ≤ S32x1.size a
  h_S32x1 : 0 < S32x1.numel
  shapeCasts_S32x1_S32x1 : S32x1.ShapeCasts S32x1
  broadcasts_S32x1_S32x4096 : S32x1.Broadcasts S32x4096
  inb_S1x4096_S1x4096_0_0 : ∀ a, (![0, 0] : Fin 2 → Nat) a + S1x4096.size a ≤ S1x4096.size a
  h_S1x4096 : 0 < S1x4096.numel
  shapeCasts_S1x16384_S16384x1 : S1x16384.ShapeCasts S16384x1
  dot_S256x64_S4096x256_S64x4096_0_1_1_0_n_n_wf : DotDims.WF S256x64 S4096x256 S64x4096 [0] [1] [1] [0] [] []
  dot_S64x64_S64x4096_S64x4096_0_0_1_1_n_n_wf : DotDims.WF S64x64 S64x4096 S64x4096 [0] [0] [1] [1] [] []
  dot_S64x32_S64x4096_S32x4096_0_0_1_1_n_n_wf : DotDims.WF S64x32 S64x4096 S32x4096 [0] [0] [1] [1] [] []
  dot_S32x1_S32x4096_S1x4096_0_0_1_1_n_n_wf : DotDims.WF S32x1 S32x4096 S1x4096 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S16384x256.size a
  hwx0_0 : ∀ i : grid0.Coords, EltTy.bits .f32 = 32 ∨ (Rect.block (s := S16384x256) S4096x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x64.size a ≤ S256x64.size a
  hwx0_1 : ∀ i : grid0.Coords, EltTy.bits .f32 = 32 ∨ (Rect.block (s := S256x64) S256x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x32.size a ≤ S64x32.size a
  hwx0_4 : ∀ i : grid0.Coords, EltTy.bits .f32 = 32 ∨ (Rect.block (s := S64x32) S64x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x1.size a ≤ S32x1.size a
  hwx0_5 : ∀ i : grid0.Coords, EltTy.bits .f32 = 32 ∨ (Rect.block (s := S32x1) S32x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x1.size a ≤ S32x1.size a
  hwx0_6 : ∀ i : grid0.Coords, EltTy.bits .f32 = 32 ∨ (Rect.block (s := S32x1) S32x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x16384.size a
  hwx0_7 : ∀ i : grid0.Coords, EltTy.bits .f32 = 32 ∨ (Rect.block (s := S1x16384) S1x4096.size (cc0_transform_7 i) (hinb0_7 i)).WholeWords (EltTy.packing .f32)

variable [Facts₀]

def dot_S256x64_S4096x256_S64x4096_0_1_1_0_n_n : DotDims S256x64 S4096x256 S64x4096 where
  lhsContracting := [0]
  rhsContracting := [1]
  lhsNonContracting := [1]
  rhsNonContracting := [0]
  lhsBatch := []
  rhsBatch := []
  wf := dot_S256x64_S4096x256_S64x4096_0_1_1_0_n_n_wf
def dot_S64x64_S64x4096_S64x4096_0_0_1_1_n_n : DotDims S64x64 S64x4096 S64x4096 where
  lhsContracting := [0]
  rhsContracting := [0]
  lhsNonContracting := [1]
  rhsNonContracting := [1]
  lhsBatch := []
  rhsBatch := []
  wf := dot_S64x64_S64x4096_S64x4096_0_0_1_1_n_n_wf
def dot_S64x32_S64x4096_S32x4096_0_0_1_1_n_n : DotDims S64x32 S64x4096 S32x4096 where
  lhsContracting := [0]
  rhsContracting := [0]
  lhsNonContracting := [1]
  rhsNonContracting := [1]
  lhsBatch := []
  rhsBatch := []
  wf := dot_S64x32_S64x4096_S32x4096_0_0_1_1_n_n_wf
def dot_S32x1_S32x4096_S1x4096_0_0_1_1_n_n : DotDims S32x1 S32x4096 S1x4096 where
  lhsContracting := [0]
  rhsContracting := [0]
  lhsNonContracting := [1]
  rhsNonContracting := [1]
  lhsBatch := []
  rhsBatch := []
  wf := dot_S32x1_S32x4096_S1x4096_0_0_1_1_n_n_wf

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S32x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x256 : Shape := ⟨2, ![16384, 256]⟩
abbrev S256x64 : Shape := ⟨2, ![256, 64]⟩
abbrev S64x64 : Shape := ⟨2, ![64, 64]⟩
abbrev S64 : Shape := ⟨1, ![64]⟩
abbrev S64x32 : Shape := ⟨2, ![64, 32]⟩
abbrev S32 : Shape := ⟨1, ![32]⟩
abbrev S32x1 : Shape := ⟨2, ![32, 1]⟩
abbrev S16384x64 : Shape := ⟨2, ![16384, 64]⟩
abbrev S_ : Shape := ⟨0, ![]⟩
abbrev S1x64 : Shape := ⟨2, ![1, 64]⟩
abbrev S16384x32 : Shape := ⟨2, ![16384, 32]⟩
abbrev S1x32 : Shape := ⟨2, ![1, 32]⟩
abbrev S16384x1 : Shape := ⟨2, ![16384, 1]⟩

abbrev nBuf : Space → Nat
  | .hbm => 26
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S256x64, .f32⟩
  | .hbm, ⟨2, _⟩ => ⟨S64x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x1, .f32⟩
  | .hbm, ⟨7, _⟩ => ⟨S16384x64, .f32⟩
  | .hbm, ⟨8, _⟩ => ⟨S_, .f32⟩
  | .hbm, ⟨9, _⟩ => ⟨S16384x64, .f32⟩
  | .hbm, ⟨10, _⟩ => ⟨S16384x64, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S_, .f32⟩
  | .hbm, ⟨16, _⟩ => ⟨S16384x64, .f32⟩
  | .hbm, ⟨17, _⟩ => ⟨S16384x64, .f32⟩
  | .hbm, ⟨18, _⟩ => ⟨S16384x32, .f32⟩
  | .hbm, ⟨19, _⟩ => ⟨S1x32, .f32⟩
  | .hbm, ⟨20, _⟩ => ⟨S16384x32, .f32⟩
  | .hbm, ⟨21, _⟩ => ⟨S16384x32, .f32⟩
  | .hbm, ⟨22, _⟩ => ⟨S_, .f32⟩
  | .hbm, ⟨23, _⟩ => ⟨S16384x32, .f32⟩
  | .hbm, ⟨24, _⟩ => ⟨S16384x32, .f32⟩
  | .hbm, ⟨25, _⟩ => ⟨S16384x1, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_call0_cst : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call1_cst : Ref sig .tc := ⟨.hbm, 15, rfl⟩
abbrev main_call1_v0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_call2_cst : Ref sig .tc := ⟨.hbm, 22, rfl⟩
abbrev main_call2_v0 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]

class Facts₀ : Prop where
  bcast_S_S16384x64 : S_.BroadcastsInDim S16384x64 (![] : Fin 0 → Fin S16384x64.rank)
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  bcast_S_S16384x32 : S_.BroadcastsInDim S16384x32 (![] : Fin 0 → Fin S16384x32.rank)
  dot_S16384x256_S256x64_S16384x64_1_0_0_1_n_n_wf : DotDims.WF S16384x256 S256x64 S16384x64 [1] [0] [0] [1] [] []
  dot_S16384x64_S64x64_S16384x64_1_0_0_1_n_n_wf : DotDims.WF S16384x64 S64x64 S16384x64 [1] [0] [0] [1] [] []
  dot_S16384x64_S64x32_S16384x32_1_0_0_1_n_n_wf : DotDims.WF S16384x64 S64x32 S16384x32 [1] [0] [0] [1] [] []
  dot_S16384x32_S32x1_S16384x1_1_0_0_1_n_n_wf : DotDims.WF S16384x32 S32x1 S16384x1 [1] [0] [0] [1] [] []

variable [Facts₀]

def dot_S16384x256_S256x64_S16384x64_1_0_0_1_n_n : DotDims S16384x256 S256x64 S16384x64 where
  lhsContracting := [1]
  rhsContracting := [0]
  lhsNonContracting := [0]
  rhsNonContracting := [1]
  lhsBatch := []
  rhsBatch := []
  wf := dot_S16384x256_S256x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf
def dot_S16384x64_S64x32_S16384x32_1_0_0_1_n_n : DotDims S16384x64 S64x32 S16384x32 where
  lhsContracting := [1]
  rhsContracting := [0]
  lhsNonContracting := [0]
  rhsNonContracting := [1]
  lhsBatch := []
  rhsBatch := []
  wf := dot_S16384x64_S64x32_S16384x32_1_0_0_1_n_n_wf
def dot_S16384x32_S32x1_S16384x1_1_0_0_1_n_n : DotDims S16384x32 S32x1 S16384x1 where
  lhsContracting := [1]
  rhsContracting := [0]
  lhsNonContracting := [0]
  rhsNonContracting := [1]
  lhsBatch := []
  rhsBatch := []
  wf := dot_S16384x32_S32x1_S16384x1_1_0_0_1_n_n_wf

class Facts : Prop extends Facts₀ where

variable [Facts]
-- ==== Proof.LibContract.lean ====
/-
  A one-axis contraction read as a plain sum over the contracted extent.

  A matrix product's dimension numbers with a single contracting axis on each side make every output entry a sum,
  over the contraction's one coordinate, of products of one entry of each operand. This file re-indexes that sum
  from the dimension record's own contraction index to `Fin K`, for operands and an output of ANY shapes and for
  ANY pair of contracted axes: the caller says which operand entries meet at position `a` (the functions `li`,
  `ri`) and shows that the record's operand indices are those whenever the contraction index has coordinate `a`.
  So a product written transposed (contracting the first axis of the left operand, or the second of the right one)
  is read by the same two lemmas as the plain row-by-column one.
-/
import Idealize.ShloMosaic.Lib.ValueIdx
import Idealize.ShloMosaic.PureOps.Ideal.Laws

noncomputable section

namespace Cert.Lib.Contract

open Idealize.ShloMosaic Idealize.ShloMosaic.ValueIdx

/-- The contraction's sum, over its own index type, is the sum over `a : Fin K` of the left operand at `li a` times
    the right operand at `ri a`, once the record's operand indices at output index `i` are known to be `li a` and
    `ri a` at every contraction index whose one coordinate is `a`. -/
theorem sum_reindex {sl sr so : Shape} (D : DotDims sl sr so) (K : Nat)
    (hr : D.contr.rank = 1) (hs : D.contr.size ⟨0, by omega⟩ = K)
    (l : sl.Idx → EReal) (r : sr.Idx → EReal) (i : so.Idx)
    (li : Fin K → sl.Idx) (ri : Fin K → sr.Idx)
    (hl : ∀ (a : Fin K) (q : D.contr.Idx), (q ⟨0, by omega⟩).val = a.val → D.lhsIdx i q = li a)
    (hri : ∀ (a : Fin K) (q : D.contr.Idx), (q ⟨0, by omega⟩).val = a.val → D.rhsIdx i q = ri a) :
    ∑ k : D.contr.Idx, l (D.lhsIdx i k) * r (D.rhsIdx i k) = ∑ a : Fin K, l (li a) * r (ri a) := by
  rw [← Equiv.sum_comp (contrEquiv1 D K hr hs).symm]
  refine Finset.sum_congr rfl fun a _ => ?_
  have hk := contrEquiv1_symm_val D K hr hs a
  rw [hl a _ hk, hri a _ hk]

/-- A matrix product into the zero accumulator, at the ideal values, read at output index `i`: the sum over
    `a : Fin K` of the two operands' entries that meet at contraction position `a`. -/
theorem matmul_zero_reindex {sl sr so : Shape} {φ₁ φ₂ : FTy} (D : DotDims sl sr so) (prec : Option ContractPrecision)
    (K : Nat) (hr : D.contr.rank = 1) (hs : D.contr.size ⟨0, by omega⟩ = K)
    (l : FVec Ideal sl φ₁) (r : FVec Ideal sr φ₂) (i : so.Idx)
    (li : Fin K → sl.Idx) (ri : Fin K → sr.Idx)
    (hl : ∀ (a : Fin K) (q : D.contr.Idx), (q ⟨0, by omega⟩).val = a.val → D.lhsIdx i q = li a)
    (hri : ∀ (a : Fin K) (q : D.contr.Idx), (q ⟨0, by omega⟩).val = a.val → D.rhsIdx i q = ri a) :
    matmul D prec l r (constant (F := Ideal) so .f32 0x00000000#32) i = ∑ a : Fin K, l (li a) * r (ri a) := by
  show FloatOps.matmul D prec l r (constant (F := Ideal) so .f32 0x00000000#32) i = _
  rw [Ideal.matmul_constant_zero_apply]
  exact sum_reindex D K hr hs l r i li ri hl hri

end Cert.Lib.Contract

end
-- ==== Proof.KernelDots.lean ====
/-
  The kernel's four matrix products, each read at one entry.

  The kernel keeps every activation TRANSPOSED: features along the first axis, the block's rows (lanes) along the
  second. Its products therefore contract the FIRST axis of the weight matrix. With `W` of shape [K, M]:
    * the embedding contracts `W`'s first axis with the SECOND axis of the input block `x` of shape [N, K], giving
      `out (j, p) = Σ_k W (k, j) · x (p, k)`;
    * the three later products contract `W`'s first axis with the first axis of an activation `h` of shape [K, N],
      giving `out (j, p) = Σ_a W (a, j) · h (a, p)`.
  For each dimension record the four coordinate facts (which coordinate of each operand is the contracted one, which
  one comes from the output index) are stated at the literal axes, and the product into the zero accumulator is then
  the plain sum over the contracted extent.
-/
import proofs.«116276_g9534827397533_cont_9to1c4b_304_18_alg».proof.Proof.Gen.KernelIdeal
import proofs.«116276_g9534827397533_cont_9to1c4b_304_18_alg».proof.Proof.LibContract

noncomputable section

namespace Cert.KernelIdeal.Dots

open Idealize.ShloMosaic Idealize.ShloMosaic.ValueIdx Cert.KernelIdeal Cert.KernelIdeal.Gen

/-! ## The embedding: weights [256, 64] against the input block [4096, 256] -/

theorem emb_lhs_0 (i : S64x4096.Idx) (q : dot_S256x64_S4096x256_S64x4096_0_1_1_0_n_n.contr.Idx) :
    (dot_S256x64_S4096x256_S64x4096_0_1_1_0_n_n.lhsIdx i q 0).val = (q ⟨0, by decide⟩).val :=
  dot_S256x64_S4096x256_S64x4096_0_1_1_0_n_n.lhsIdx_val_of_single rfl i q
theorem emb_lhs_1 (i : S64x4096.Idx) (q : dot_S256x64_S4096x256_S64x4096_0_1_1_0_n_n.contr.Idx) :
    (dot_S256x64_S4096x256_S64x4096_0_1_1_0_n_n.lhsIdx i q 1).val = (i 0).val := by
  unfold DotDims.lhsIdx
  rw [dif_neg (show ¬(1 : Fin S256x64.rank) ∈ dot_S256x64_S4096x256_S64x4096_0_1_1_0_n_n.lhsBatch by decide), dif_pos (show (1 : Fin S256x64.rank) ∈ dot_S256x64_S4096x256_S64x4096_0_1_1_0_n_n.lhsNonContracting by decide)]
  rfl
theorem emb_rhs_1 (i : S64x4096.Idx) (q : dot_S256x64_S4096x256_S64x4096_0_1_1_0_n_n.contr.Idx) :
    (dot_S256x64_S4096x256_S64x4096_0_1_1_0_n_n.rhsIdx i q 1).val = (q ⟨0, by decide⟩).val :=
  dot_S256x64_S4096x256_S64x4096_0_1_1_0_n_n.rhsIdx_val_of_single rfl i q
theorem emb_rhs_0 (i : S64x4096.Idx) (q : dot_S256x64_S4096x256_S64x4096_0_1_1_0_n_n.contr.Idx) :
    (dot_S256x64_S4096x256_S64x4096_0_1_1_0_n_n.rhsIdx i q 0).val = (i 1).val := by
  unfold DotDims.rhsIdx
  rw [dif_neg (show ¬(0 : Fin S4096x256.rank) ∈ dot_S256x64_S4096x256_S64x4096_0_1_1_0_n_n.rhsBatch by decide), dif_pos (show (0 : Fin S4096x256.rank) ∈ dot_S256x64_S4096x256_S64x4096_0_1_1_0_n_n.rhsNonContracting by decide)]
  rfl

/-- The embedding product at feature `j` and lane `p`: the sum over the 256 input coordinates of weight times input. -/
theorem emb_apply (W : FVec Ideal S256x64 .f32) (x : FVec Ideal S4096x256 .f32) (j : Fin 64) (p : Fin 4096) :
    matmul dot_S256x64_S4096x256_S64x4096_0_1_1_0_n_n none W x (constant (F := Ideal) S64x4096 .f32 0x00000000#32) (ix2 j p)
      = ∑ k : Fin 256, W (ix2 k j) * x (ix2 p k) :=
  Cert.Lib.Contract.matmul_zero_reindex dot_S256x64_S4096x256_S64x4096_0_1_1_0_n_n none 256 rfl rfl W x (ix2 j p)
    (fun k => ix2 k j) (fun k => ix2 p k)
    (fun a q hq => funext fun d => Fin.ext (by
      match d with
      | ⟨0, _⟩ => exact (emb_lhs_0 _ _).trans hq
      | ⟨1, _⟩ => exact emb_lhs_1 _ _))
    (fun a q hq => funext fun d => Fin.ext (by
      match d with
      | ⟨0, _⟩ => exact emb_rhs_0 _ _
      | ⟨1, _⟩ => exact (emb_rhs_1 _ _).trans hq))

/-! ## The first hidden layer: weights [64, 64] against activations [64, 4096] -/

theorem hid1_lhs_0 (i : S64x4096.Idx) (q : dot_S64x64_S64x4096_S64x4096_0_0_1_1_n_n.contr.Idx) :
    (dot_S64x64_S64x4096_S64x4096_0_0_1_1_n_n.lhsIdx i q 0).val = (q ⟨0, by decide⟩).val :=
  dot_S64x64_S64x4096_S64x4096_0_0_1_1_n_n.lhsIdx_val_of_single rfl i q
theorem hid1_lhs_1 (i : S64x4096.Idx) (q : dot_S64x64_S64x4096_S64x4096_0_0_1_1_n_n.contr.Idx) :
    (dot_S64x64_S64x4096_S64x4096_0_0_1_1_n_n.lhsIdx i q 1).val = (i 0).val := by
  unfold DotDims.lhsIdx
  rw [dif_neg (show ¬(1 : Fin S64x64.rank) ∈ dot_S64x64_S64x4096_S64x4096_0_0_1_1_n_n.lhsBatch by decide), dif_pos (show (1 : Fin S64x64.rank) ∈ dot_S64x64_S64x4096_S64x4096_0_0_1_1_n_n.lhsNonContracting by decide)]
  rfl
theorem hid1_rhs_0 (i : S64x4096.Idx) (q : dot_S64x64_S64x4096_S64x4096_0_0_1_1_n_n.contr.Idx) :
    (dot_S64x64_S64x4096_S64x4096_0_0_1_1_n_n.rhsIdx i q 0).val = (q ⟨0, by decide⟩).val :=
  dot_S64x64_S64x4096_S64x4096_0_0_1_1_n_n.rhsIdx_val_of_single rfl i q
theorem hid1_rhs_1 (i : S64x4096.Idx) (q : dot_S64x64_S64x4096_S64x4096_0_0_1_1_n_n.contr.Idx) :
    (dot_S64x64_S64x4096_S64x4096_0_0_1_1_n_n.rhsIdx i q 1).val = (i 1).val := by
  unfold DotDims.rhsIdx
  rw [dif_neg (show ¬(1 : Fin S64x4096.rank) ∈ dot_S64x64_S64x4096_S64x4096_0_0_1_1_n_n.rhsBatch by decide), dif_pos (show (1 : Fin S64x4096.rank) ∈ dot_S64x64_S64x4096_S64x4096_0_0_1_1_n_n.rhsNonContracting by decide)]
  rfl

/-- The first hidden product at feature `j` and lane `p`. -/
theorem hid1_apply (W : FVec Ideal S64x64 .f32) (h : FVec Ideal S64x4096 .f32) (j : Fin 64) (p : Fin 4096) :
    matmul dot_S64x64_S64x4096_S64x4096_0_0_1_1_n_n none W h (constant (F := Ideal) S64x4096 .f32 0x00000000#32) (ix2 j p)
      = ∑ a : Fin 64, W (ix2 a j) * h (ix2 a p) :=
  Cert.Lib.Contract.matmul_zero_reindex dot_S64x64_S64x4096_S64x4096_0_0_1_1_n_n none 64 rfl rfl W h (ix2 j p)
    (fun a => ix2 a j) (fun a => ix2 a p)
    (fun a q hq => funext fun d => Fin.ext (by
      match d with
      | ⟨0, _⟩ => exact (hid1_lhs_0 _ _).trans hq
      | ⟨1, _⟩ => exact hid1_lhs_1 _ _))
    (fun a q hq => funext fun d => Fin.ext (by
      match d with
      | ⟨0, _⟩ => exact (hid1_rhs_0 _ _).trans hq
      | ⟨1, _⟩ => exact hid1_rhs_1 _ _))

/-! ## The second hidden layer: weights [64, 32] against activations [64, 4096] -/

theorem hid2_lhs_0 (i : S32x4096.Idx) (q : dot_S64x32_S64x4096_S32x4096_0_0_1_1_n_n.contr.Idx) :
    (dot_S64x32_S64x4096_S32x4096_0_0_1_1_n_n.lhsIdx i q 0).val = (q ⟨0, by decide⟩).val :=
  dot_S64x32_S64x4096_S32x4096_0_0_1_1_n_n.lhsIdx_val_of_single rfl i q
theorem hid2_lhs_1 (i : S32x4096.Idx) (q : dot_S64x32_S64x4096_S32x4096_0_0_1_1_n_n.contr.Idx) :
    (dot_S64x32_S64x4096_S32x4096_0_0_1_1_n_n.lhsIdx i q 1).val = (i 0).val := by
  unfold DotDims.lhsIdx
  rw [dif_neg (show ¬(1 : Fin S64x32.rank) ∈ dot_S64x32_S64x4096_S32x4096_0_0_1_1_n_n.lhsBatch by decide), dif_pos (show (1 : Fin S64x32.rank) ∈ dot_S64x32_S64x4096_S32x4096_0_0_1_1_n_n.lhsNonContracting by decide)]
  rfl
theorem hid2_rhs_0 (i : S32x4096.Idx) (q : dot_S64x32_S64x4096_S32x4096_0_0_1_1_n_n.contr.Idx) :
    (dot_S64x32_S64x4096_S32x4096_0_0_1_1_n_n.rhsIdx i q 0).val = (q ⟨0, by decide⟩).val :=
  dot_S64x32_S64x4096_S32x4096_0_0_1_1_n_n.rhsIdx_val_of_single rfl i q
theorem hid2_rhs_1 (i : S32x4096.Idx) (q : dot_S64x32_S64x4096_S32x4096_0_0_1_1_n_n.contr.Idx) :
    (dot_S64x32_S64x4096_S32x4096_0_0_1_1_n_n.rhsIdx i q 1).val = (i 1).val := by
  unfold DotDims.rhsIdx
  rw [dif_neg (show ¬(1 : Fin S64x4096.rank) ∈ dot_S64x32_S64x4096_S32x4096_0_0_1_1_n_n.rhsBatch by decide), dif_pos (show (1 : Fin S64x4096.rank) ∈ dot_S64x32_S64x4096_S32x4096_0_0_1_1_n_n.rhsNonContracting by decide)]
  rfl

/-- The second hidden product at feature `j` and lane `p`. -/
theorem hid2_apply (W : FVec Ideal S64x32 .f32) (h : FVec Ideal S64x4096 .f32) (j : Fin 32) (p : Fin 4096) :
    matmul dot_S64x32_S64x4096_S32x4096_0_0_1_1_n_n none W h (constant (F := Ideal) S32x4096 .f32 0x00000000#32) (ix2 j p)
      = ∑ a : Fin 64, W (ix2 a j) * h (ix2 a p) :=
  Cert.Lib.Contract.matmul_zero_reindex dot_S64x32_S64x4096_S32x4096_0_0_1_1_n_n none 64 rfl rfl W h (ix2 j p)
    (fun a => ix2 a j) (fun a => ix2 a p)
    (fun a q hq => funext fun d => Fin.ext (by
      match d with
      | ⟨0, _⟩ => exact (hid2_lhs_0 _ _).trans hq
      | ⟨1, _⟩ => exact hid2_lhs_1 _ _))
    (fun a q hq => funext fun d => Fin.ext (by
      match d with
      | ⟨0, _⟩ => exact (hid2_rhs_0 _ _).trans hq
      | ⟨1, _⟩ => exact hid2_rhs_1 _ _))

/-! ## The output layer: weights [32, 1] against activations [32, 4096] -/

theorem outp_lhs_0 (i : S1x4096.Idx) (q : dot_S32x1_S32x4096_S1x4096_0_0_1_1_n_n.contr.Idx) :
    (dot_S32x1_S32x4096_S1x4096_0_0_1_1_n_n.lhsIdx i q 0).val = (q ⟨0, by decide⟩).val :=
  dot_S32x1_S32x4096_S1x4096_0_0_1_1_n_n.lhsIdx_val_of_single rfl i q
theorem outp_lhs_1 (i : S1x4096.Idx) (q : dot_S32x1_S32x4096_S1x4096_0_0_1_1_n_n.contr.Idx) :
    (dot_S32x1_S32x4096_S1x4096_0_0_1_1_n_n.lhsIdx i q 1).val = (i 0).val := by
  unfold DotDims.lhsIdx
  rw [dif_neg (show ¬(1 : Fin S32x1.rank) ∈ dot_S32x1_S32x4096_S1x4096_0_0_1_1_n_n.lhsBatch by decide), dif_pos (show (1 : Fin S32x1.rank) ∈ dot_S32x1_S32x4096_S1x4096_0_0_1_1_n_n.lhsNonContracting by decide)]
  rfl
theorem outp_rhs_0 (i : S1x4096.Idx) (q : dot_S32x1_S32x4096_S1x4096_0_0_1_1_n_n.contr.Idx) :
    (dot_S32x1_S32x4096_S1x4096_0_0_1_1_n_n.rhsIdx i q 0).val = (q ⟨0, by decide⟩).val :=
  dot_S32x1_S32x4096_S1x4096_0_0_1_1_n_n.rhsIdx_val_of_single rfl i q
theorem outp_rhs_1 (i : S1x4096.Idx) (q : dot_S32x1_S32x4096_S1x4096_0_0_1_1_n_n.contr.Idx) :
    (dot_S32x1_S32x4096_S1x4096_0_0_1_1_n_n.rhsIdx i q 1).val = (i 1).val := by
  unfold DotDims.rhsIdx
  rw [dif_neg (show ¬(1 : Fin S32x4096.rank) ∈ dot_S32x1_S32x4096_S1x4096_0_0_1_1_n_n.rhsBatch by decide), dif_pos (show (1 : Fin S32x4096.rank) ∈ dot_S32x1_S32x4096_S1x4096_0_0_1_1_n_n.rhsNonContracting by decide)]
  rfl

/-- The output product at its one feature and lane `p`. -/
theorem outp_apply (W : FVec Ideal S32x1 .f32) (h : FVec Ideal S32x4096 .f32) (j : Fin 1) (p : Fin 4096) :
    matmul dot_S32x1_S32x4096_S1x4096_0_0_1_1_n_n none W h (constant (F := Ideal) S1x4096 .f32 0x00000000#32) (ix2 j p)
      = ∑ a : Fin 32, W (ix2 a j) * h (ix2 a p) :=
  Cert.Lib.Contract.matmul_zero_reindex dot_S32x1_S32x4096_S1x4096_0_0_1_1_n_n none 32 rfl rfl W h (ix2 j p)
    (fun a => ix2 a j) (fun a => ix2 a p)
    (fun a q hq => funext fun d => Fin.ext (by
      match d with
      | ⟨0, _⟩ => exact (outp_lhs_0 _ _).trans hq
      | ⟨1, _⟩ => exact outp_lhs_1 _ _))
    (fun a q hq => funext fun d => Fin.ext (by
      match d with
      | ⟨0, _⟩ => exact (outp_rhs_0 _ _).trans hq
      | ⟨1, _⟩ => exact outp_rhs_1 _ _))

end Cert.KernelIdeal.Dots

end
-- ==== Proof.MlpSpec.lean ====
/-
  The network both programs compute, as one function of the argument arrays.

  Each input row `x` (256 numbers) goes through four dense layers: an embedding without bias, two hidden layers
  with bias, each followed by the positive part `max · 0`, and a last layer without bias or activation onto a
  single output:
      e  = (x · W_embed)⁺,   h₁ = (e · W₁ + b₁)⁺,   h₂ = (h₁ · W₂ + b₂)⁺,   out = h₂ · W₃.
  Everything is read on the extended reals. Rows do not interact, so the whole result is the row function applied to
  every row of the input. The only law needed between the two programs is that a product does not depend on the
  order of its two factors (one program multiplies weight by activation, the other activation by weight), which holds
  on the extended reals without any finiteness assumption.
-/
import Idealize.ShloMosaic.Lib.ValueIdx

noncomputable section

namespace Cert.Mlp

open Idealize.ShloMosaic Idealize.ShloMosaic.ValueIdx

/-- A row vector `h` times a weight matrix `W`, at output column `j`: `Σ_a h a · W (a, j)`. -/
def lin {K N : Nat} (h : Fin K → EReal) (W : (⟨2, ![K, N]⟩ : Shape).Idx → EReal) (j : Fin N) : EReal :=
  ∑ a : Fin K, h a * W (ix2 a j)

/-- The same sum with each product's factors in the other order. -/
theorem lin_comm {K N : Nat} (h : Fin K → EReal) (W : (⟨2, ![K, N]⟩ : Shape).Idx → EReal) (j : Fin N) :
    ∑ a : Fin K, W (ix2 a j) * h a = lin h W j :=
  Finset.sum_congr rfl fun a _ => mul_comm _ _

/-- The network on one input row. The biases are given as functions of the output column. -/
def row (x : Fin 256 → EReal) (We : (⟨2, ![256, 64]⟩ : Shape).Idx → EReal) (W1 : (⟨2, ![64, 64]⟩ : Shape).Idx → EReal)
    (b1 : Fin 64 → EReal) (W2 : (⟨2, ![64, 32]⟩ : Shape).Idx → EReal) (b2 : Fin 32 → EReal)
    (W3 : (⟨2, ![32, 1]⟩ : Shape).Idx → EReal) : EReal :=
  lin (fun j2 => max (lin (fun j1 => max (lin (fun j0 => max (lin x We j0) 0) W1 j1 + b1 j1) 0) W2 j2 + b2 j2) 0) W3 0

/-- The network on every row of the input: entry `(r, 0)` of the result is the row function of row `r`. -/
def G (inp : (⟨2, ![16384, 256]⟩ : Shape).Idx → EReal) (We : (⟨2, ![256, 64]⟩ : Shape).Idx → EReal)
    (W1 : (⟨2, ![64, 64]⟩ : Shape).Idx → EReal) (b1 : (⟨1, ![64]⟩ : Shape).Idx → EReal)
    (W2 : (⟨2, ![64, 32]⟩ : Shape).Idx → EReal) (b2 : (⟨1, ![32]⟩ : Shape).Idx → EReal)
    (W3 : (⟨2, ![32, 1]⟩ : Shape).Idx → EReal) : (⟨2, ![16384, 1]⟩ : Shape).Idx → EReal :=
  fun i => row (fun k => inp (ix2 (i 0) k)) We W1 (fun j => b1 (ix1 j)) W2 (fun j => b2 (ix1 j)) W3

end Cert.Mlp

end
-- ==== Proof.KernelPayload.lean ====
/-
  What the kernel body stores, read at one lane.

  The body loads the input block `x` (4096 rows of 256 numbers) and the six small operands whole, and stores one value
  of shape [1, 4096]. Lane `p` of that value depends on row `p` of the block only: it is the network of MlpSpec.lean
  applied to that row. The body's activations are transposed (feature first, lane second), so each of its products is
  a sum of weight-times-activation; the network is written activation-times-weight, and the two agree because a
  product does not depend on the order of its factors. The biases arrive as columns of shape [n, 1], broadcast along
  the lanes, so lane `p` of feature `j` adds the column's entry `(j, 0)`.
-/
import proofs.«116276_g9534827397533_cont_9to1c4b_304_18_alg».proof.Proof.Gen.KernelIdeal.Skeleton
import proofs.«116276_g9534827397533_cont_9to1c4b_304_18_alg».proof.Proof.KernelDots
import proofs.«116276_g9534827397533_cont_9to1c4b_304_18_alg».proof.Proof.MlpSpec
import Idealize.ShloMosaic.Lib.Pipeline.Value

noncomputable section

namespace Cert.KernelIdeal.Payload

open Idealize.ShloMosaic Idealize.ShloMosaic.ValueIdx Cert.KernelIdeal Cert.KernelIdeal.Gen

/-- A column of shape [n, 1] broadcast along `m` lanes reads, at `(j, p)`, the column's entry `(j, 0)`. -/
theorem column_broadcast {α : Type} {n m : Nat} (hn : n ≠ 1) (v : (⟨2, ![n, 1]⟩ : Shape).Idx → α)
    (h : (⟨2, ![n, 1]⟩ : Shape).Broadcasts ⟨2, ![n, m]⟩) (j : Fin n) (p : Fin m) :
    broadcastTo ⟨2, ![n, m]⟩ v h (ix2 j p) = v (ix2 j (0 : Fin 1)) := by
  refine broadcastTo_apply v h (ix2 j p) (ix2 j (0 : Fin 1)) fun ax => ?_
  match ax with
  | ⟨0, _⟩ =>
    show j.val = if n = 1 then 0 else j.val
    rw [if_neg hn]
  | ⟨1, _⟩ => rfl

/-- The embedding followed by the positive part, at feature `j` and lane `p`. -/
theorem embed_apply (x : FVec Ideal S4096x256 .f32) (We : FVec Ideal S256x64 .f32) (j : Fin 64) (p : Fin 4096) :
    maximumf (matmul dot_S256x64_S4096x256_S64x4096_0_1_1_0_n_n none We x (constant (F := Ideal) S64x4096 .f32 0x00000000#32))
        (broadcast S64x4096 (Scalar.ofBits (F := Ideal) .f32 0x00000000#32)) (ix2 j p)
      = max (Cert.Mlp.lin (fun k => x (ix2 p k)) We j) 0 := by
  rw [maximumf_apply, Cert.KernelIdeal.Dots.emb_apply, broadcast_apply, Cert.Mlp.lin_comm]
  show max _ (Ideal.ofBits .f32 0x00000000#32) = _
  rw [Ideal.ofBits_zero_f32]

/-- The first hidden layer (product, bias column, positive part), at feature `j` and lane `p`, from the activation `e`
    before it. -/
theorem hidden1_apply (e : FVec Ideal S64x4096 .f32) (W1 : FVec Ideal S64x64 .f32) (b1 : FVec Ideal S64x1 .f32)
    (j : Fin 64) (p : Fin 4096) :
    maximumf (addf (matmul dot_S64x64_S64x4096_S64x4096_0_0_1_1_n_n none W1 e (constant (F := Ideal) S64x4096 .f32 0x00000000#32))
          (broadcastTo S64x4096 (shapeCast S64x1 b1 shapeCasts_S64x1_S64x1) broadcasts_S64x1_S64x4096))
        (broadcast S64x4096 (Scalar.ofBits (F := Ideal) .f32 0x00000000#32)) (ix2 j p)
      = max (Cert.Mlp.lin (fun a => e (ix2 a p)) W1 j + b1 (ix2 j 0)) 0 := by
  rw [maximumf_apply, addf_apply, Cert.KernelIdeal.Dots.hid1_apply, broadcast_apply, Cert.Mlp.lin_comm,
    shapeCast_self, column_broadcast (by decide)]
  show max _ (Ideal.ofBits .f32 0x00000000#32) = _
  rw [Ideal.ofBits_zero_f32]

/-- The second hidden layer, at feature `j` and lane `p`, from the activation `h` before it. -/
theorem hidden2_apply (h : FVec Ideal S64x4096 .f32) (W2 : FVec Ideal S64x32 .f32) (b2 : FVec Ideal S32x1 .f32)
    (j : Fin 32) (p : Fin 4096) :
    maximumf (addf (matmul dot_S64x32_S64x4096_S32x4096_0_0_1_1_n_n none W2 h (constant (F := Ideal) S32x4096 .f32 0x00000000#32))
          (broadcastTo S32x4096 (shapeCast S32x1 b2 shapeCasts_S32x1_S32x1) broadcasts_S32x1_S32x4096))
        (broadcast S32x4096 (Scalar.ofBits (F := Ideal) .f32 0x00000000#32)) (ix2 j p)
      = max (Cert.Mlp.lin (fun a => h (ix2 a p)) W2 j + b2 (ix2 j 0)) 0 := by
  rw [maximumf_apply, addf_apply, Cert.KernelIdeal.Dots.hid2_apply, broadcast_apply, Cert.Mlp.lin_comm,
    shapeCast_self, column_broadcast (by decide)]
  show max _ (Ideal.ofBits .f32 0x00000000#32) = _
  rw [Ideal.ofBits_zero_f32]

/-- The output layer at lane `p`, from the activation `h` before it. -/
theorem output_apply (h : FVec Ideal S32x4096 .f32) (W3 : FVec Ideal S32x1 .f32) (p : Fin 4096) :
    matmul dot_S32x1_S32x4096_S1x4096_0_0_1_1_n_n none W3 h (constant (F := Ideal) S1x4096 .f32 0x00000000#32) (ix2 (0 : Fin 1) p)
      = Cert.Mlp.lin (fun a => h (ix2 a p)) W3 0 := by
  rw [Cert.KernelIdeal.Dots.outp_apply, Cert.Mlp.lin_comm]

/-- THE STORED VALUE AT A LANE: lane `p` of what the body stores is the network applied to row `p` of the input block,
    with the bias columns read at their first (only) column. -/
theorem lane (x : Vec Ideal S4096x256 .f32) (We : Vec Ideal S256x64 .f32) (W1 : Vec Ideal S64x64 .f32)
    (b1 : Vec Ideal S64x1 .f32) (W2 : Vec Ideal S64x32 .f32) (b2 : Vec Ideal S32x1 .f32) (W3 : Vec Ideal S32x1 .f32)
    (p : Fin 4096) :
    k0_pay1 (F := Ideal) x We W1 b1 W2 b2 W3 (ix2 (0 : Fin 1) p)
      = Cert.Mlp.row (fun k => x (ix2 p k)) We W1 (fun j => b1 (ix2 j 0)) W2 (fun j => b2 (ix2 j 0)) W3 := by
  unfold k0_pay1 Cert.Mlp.row
  dsimp only
  rw [output_apply]
  refine congrArg (fun h => Cert.Mlp.lin h W3 0) (funext fun a2 => ?_)
  rw [hidden2_apply]
  refine congrArg (fun h => max (Cert.Mlp.lin h W2 a2 + b2 (ix2 a2 0)) 0) (funext fun a1 => ?_)
  rw [hidden1_apply]
  refine congrArg (fun h => max (Cert.Mlp.lin h W1 a1 + b1 (ix2 a1 0)) 0) (funext fun a0 => ?_)
  exact embed_apply x We a0 p

end Cert.KernelIdeal.Payload

end
-- ==== Proof.KernelValue.lean ====
/-
  The kernel's result array, as the network applied to every row of the input.

  The pallas_call runs the body at 4 grid points. At point `t` the input window holds rows `4096·t … 4096·t + 4095` of
  the input, the six small operands are staged whole (their block index is `(0, 0)` at every point), and the output
  window writes back lanes `4096·t … 4096·t + 4095` of a [1, 16384] array. By KernelPayload.lean lane `p` of what the
  body stores is the network of row `p` of the input block, so what point `t` writes back is block `t` of ONE
  function of the whole arrays: entry `(0, r)` is the network of input row `r`. The four blocks tile the output array,
  so after the region it holds that function everywhere. Around the region the host reshapes the two bias vectors
  into columns (entry `(j, 0)` of the column is entry `j` of the vector) and the [1, 16384] result into [16384, 1]
  (entry `(r, 0)` is entry `(0, r)`), which gives MlpSpec.lean's `G` of the argument arrays.
-/
import proofs.«116276_g9534827397533_cont_9to1c4b_304_18_alg».proof.Proof.Gen.KernelIdeal.Frame
import proofs.«116276_g9534827397533_cont_9to1c4b_304_18_alg».proof.Proof.KernelPayload
import proofs.«116276_g9534827397533_cont_9to1c4b_304_18_alg».proof.Proof.MlpSpec
import Idealize.ShloMosaic.Lib.Pipeline.Value
import Idealize.ShloMosaic.Lib.StableHlo.Run
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen

/-! ## The lane-major result as one function of the arrays the region reads -/

/-- Entry `(0, r)` is the network of input row `r`; the biases are the columns the region is given. -/
def laneResult (inp : FVec Ideal S16384x256 .f32) (We : FVec Ideal S256x64 .f32) (W1 : FVec Ideal S64x64 .f32)
    (b1c : FVec Ideal S64x1 .f32) (W2 : FVec Ideal S64x32 .f32) (b2c : FVec Ideal S32x1 .f32) (W3 : FVec Ideal S32x1 .f32) :
    FVec Ideal S1x16384 .f32 :=
  fun i => Cert.Mlp.row (fun k => inp (ix2 (i 1) k)) We W1 (fun j => b1c (ix2 j 0)) W2 (fun j => b2c (ix2 j 0)) W3

/-- What the body stores at index `y` of its block is `laneResult` at index `i` of the array, as soon as row `y 1` of the
    input block is row `i 1` of the input and the other six blocks are the whole arrays. -/
theorem stored_eq (inp : FVec Ideal S16384x256 .f32) (We : FVec Ideal S256x64 .f32) (W1 : FVec Ideal S64x64 .f32)
    (b1c : FVec Ideal S64x1 .f32) (W2 : FVec Ideal S64x32 .f32) (b2c : FVec Ideal S32x1 .f32) (W3 : FVec Ideal S32x1 .f32)
    (x : Vec Ideal S4096x256 .f32) (x1 : Vec Ideal S256x64 .f32) (x2 : Vec Ideal S64x64 .f32) (x3 : Vec Ideal S64x1 .f32)
    (x4 : Vec Ideal S64x32 .f32) (x5 : Vec Ideal S32x1 .f32) (x6 : Vec Ideal S32x1 .f32)
    (y : S1x4096.Idx) (i : S1x16384.Idx)
    (hx : ∀ k : Fin 256, x (ix2 (y 1) k) = inp (ix2 (i 1) k))
    (h1 : x1 = We) (h2 : x2 = W1) (h3 : x3 = b1c) (h4 : x4 = W2) (h5 : x5 = b2c) (h6 : x6 = W3) :
    k0_pay1 (F := Ideal) x x1 x2 x3 x4 x5 x6 y = laneResult inp We W1 b1c W2 b2c W3 i := by
  subst h1 h2 h3 h4 h5 h6
  obtain ⟨u, p, rfl⟩ : ∃ (u : Fin 1) (p : Fin 4096), y = ix2 u p := ⟨y 0, y 1, eq_ix2 y⟩
  have hu : u = 0 := Subsingleton.elim _ _
  subst hu
  rw [Cert.KernelIdeal.Payload.lane]
  unfold laneResult
  exact congrArg (fun h => Cert.Mlp.row h x1 x2 (fun j => x3 (ix2 j 0)) x4 (fun j => x5 (ix2 j 0)) x6) (funext hx)

/-! ## The windows' block indices over the grid -/

theorem hz : (![0, 0] : Fin 2 → Nat) = fun _ => 0 := funext fun a => by fin_cases a <;> rfl

/-- Decided over the four grid points: the input window's row-block index is the output window's lane-block index, the
    six small windows stay at block `(0, 0)`, and the output's lane-block index is at most 3. -/
theorem idx_facts : ∀ t : Fin cfg0.N,
    win0_0.index t (0 : Fin 2) = win0_7.index t (1 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) ≤ 3 :=
  (by decide +kernel : ∀ t : Fin grid0.N, _)

/-- Every lane block of the output is some point's. -/
theorem idx_onto : ∀ q : Fin 4, ∃ t : Fin cfg0.N, win0_7.index t = ![0, q.val] :=
  (by decide +kernel : ∀ q : Fin 4, ∃ t : Fin grid0.N, win0_7.index t = ![0, q.val])

variable (m : (ℓ : Loc nD τ sig) → Buf (Elt Ideal) ℓ) (ρ : Dev nD → PrngReg)

/-! ## A window staged whole holds its whole array at every point -/

theorem blk1 (c : Dev nD) (t : Fin cfg0.N) : (iblk m c 1 t : Vec Ideal S256x64 .f32) = V m c main_arg1 := by
  obtain ⟨-, -, e0, e1, -⟩ := idx_facts t
  funext j
  show V m c main_arg1 (((cfg0.win 1).blk t).view.emb j) = V m c main_arg1 j
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 64 + 1 * (j 1).val = (j 1).val; omega
theorem blk2 (c : Dev nD) (t : Fin cfg0.N) : (iblk m c 2 t : Vec Ideal S64x64 .f32) = V m c main_arg2 := by
  obtain ⟨-, -, -, -, e0, e1, -⟩ := idx_facts t
  funext j
  show V m c main_arg2 (((cfg0.win 2).blk t).view.emb j) = V m c main_arg2 j
  refine congrArg _ (funext fun a => Fin.ext ?_)
  match a with
  | ⟨0, _⟩ => show win0_2.index t (0 : Fin 2) * 64 + 1 * (j 0).val = (j 0).val; omega
  | ⟨1, _⟩ => show win0_2.index t (1 : Fin 2) * 64 + 1 * (j 1).val = (j 1).val; omega
theorem blk3 (c : Dev nD) (t : Fin cfg0.N) : (iblk m c 3 t : Vec Ideal S64x1 .f32) = V m c main_v0 := by
  obtain ⟨-, -, -, -, -, -, e0, e1, -⟩ := idx_facts t
  funext j
  show V m c main_v0 (((cfg0.win 3).blk t).view.emb j) = V m c main_v0 j
  refine congrArg _ (funext fun a => Fin.ext ?_)
  match a with
  | ⟨0, _⟩ => show win0_3.index t (0 : Fin 2) * 64 + 1 * (j 0).val = (j 0).val; omega
  | ⟨1, _⟩ => show win0_3.index t (1 : Fin 2) * 1 + 1 * (j 1).val = (j 1).val; omega
theorem blk4 (c : Dev nD) (t : Fin cfg0.N) : (iblk m c 4 t : Vec Ideal S64x32 .f32) = V m c main_arg4 := by
  obtain ⟨-, -, -, -, -, -, -, -, e0, e1, -⟩ := idx_facts t
  funext j
  show V m c main_arg4 (((cfg0.win 4).blk t).view.emb j) = V m c main_arg4 j
  refine congrArg _ (funext fun a => Fin.ext ?_)
  match a with
  | ⟨0, _⟩ => show win0_4.index t (0 : Fin 2) * 64 + 1 * (j 0).val = (j 0).val; omega
  | ⟨1, _⟩ => show win0_4.index t (1 : Fin 2) * 32 + 1 * (j 1).val = (j 1).val; omega
theorem blk5 (c : Dev nD) (t : Fin cfg0.N) : (iblk m c 5 t : Vec Ideal S32x1 .f32) = V m c main_v1 := by
  obtain ⟨-, -, -, -, -, -, -, -, -, -, e0, e1, -⟩ := idx_facts t
  funext j
  show V m c main_v1 (((cfg0.win 5).blk t).view.emb j) = V m c main_v1 j
  refine congrArg _ (funext fun a => Fin.ext ?_)
  match a with
  | ⟨0, _⟩ => show win0_5.index t (0 : Fin 2) * 32 + 1 * (j 0).val = (j 0).val; omega
  | ⟨1, _⟩ => show win0_5.index t (1 : Fin 2) * 1 + 1 * (j 1).val = (j 1).val; omega
theorem blk6 (c : Dev nD) (t : Fin cfg0.N) : (iblk m c 6 t : Vec Ideal S32x1 .f32) = V m c main_arg6 := by
  obtain ⟨-, -, -, -, -, -, -, -, -, -, -, -, e0, e1, -⟩ := idx_facts t
  funext j
  show V m c main_arg6 (((cfg0.win 6).blk t).view.emb j) = V m c main_arg6 j
  refine congrArg _ (funext fun a => Fin.ext ?_)
  match a with
  | ⟨0, _⟩ => show win0_6.index t (0 : Fin 2) * 32 + 1 * (j 0).val = (j 0).val; omega
  | ⟨1, _⟩ => show win0_6.index t (1 : Fin 2) * 1 + 1 * (j 1).val = (j 1).val; omega

/-! ## What a point writes back, the cover, and the array after the region -/

/-- WHAT POINT `t` WRITES BACK is block `t` of `laneResult` of the arrays as the region finds them. -/
theorem flushed7_eq (c : Dev nD) (t : Fin cfg0.N) :
    (dats m 0 c).flushed 7 t = ((cfg0.win 7).blk t).view.read (Elt Ideal)
      (laneResult (V m c main_arg0) (V m c main_arg1) (V m c main_arg2) (V m c main_v0) (V m c main_arg4) (V m c main_v1) (V m c main_arg6)) := by
  show (cfg0.win 7).cut (grid0.coords t) ((dats m 0 c).after 7 t) = _
  rw [after0_7]
  unfold out0_7
  rw [View.canon_unit_zero hz]
  simp only [View.ld_unit_zero (S := S4096x256) hz, View.ld_unit_zero (S := S256x64) hz, View.ld_unit_zero (S := S64x64) hz,
    View.ld_unit_zero (S := S64x1) hz, View.ld_unit_zero (S := S64x32) hz, View.ld_unit_zero (S := S32x1) hz]
  obtain ⟨e0, e1, -⟩ := idx_facts t
  funext y
  show k0_pay1 (F := Ideal) (iblk m c 0 t) (iblk m c 1 t) (iblk m c 2 t) (iblk m c 3 t) (iblk m c 4 t) (iblk m c 5 t) (iblk m c 6 t) y
    = laneResult (V m c main_arg0) (V m c main_arg1) (V m c main_arg2) (V m c main_v0) (V m c main_arg4) (V m c main_v1) (V m c main_arg6)
        (((cfg0.win 7).blk t).view.emb y)
  refine stored_eq (V m c main_arg0) (V m c main_arg1) (V m c main_arg2) (V m c main_v0) (V m c main_arg4) (V m c main_v1) (V m c main_arg6)
    (iblk m c 0 t) (iblk m c 1 t) (iblk m c 2 t) (iblk m c 3 t) (iblk m c 4 t) (iblk m c 5 t) (iblk m c 6 t)
    y (((cfg0.win 7).blk t).view.emb y) (fun k => ?_) (blk1 m c t) (blk2 m c t) (blk3 m c t) (blk4 m c t) (blk5 m c t) (blk6 m c t)
  show V m c main_arg0 (((cfg0.win 0).blk t).view.emb (ix2 (y 1) k)) = V m c main_arg0 (ix2 ((((cfg0.win 7).blk t).view.emb y) 1) k)
  refine congrArg _ (funext fun a => Fin.ext ?_)
  match a with
  | ⟨0, _⟩ => show win0_0.index t (0 : Fin 2) * 4096 + 1 * (y 1).val = win0_7.index t (1 : Fin 2) * 4096 + 1 * (y 1).val; rw [e0]
  | ⟨1, _⟩ => show win0_0.index t (1 : Fin 2) * 256 + 1 * k.val = k.val; omega

/-- An index of the output array is in point `t`'s block iff each coordinate is in the block's range on its axis. -/
theorem mem_blk7 (t : Fin cfg0.N) (i : S1x16384.Idx) :
    i ∈ ((cfg0.win 7).blk t).view.set ↔ ∀ a : Fin 2, win0_7.index t a * S1x4096.size a ≤ (i a).val ∧ (i a).val < win0_7.index t a * S1x4096.size a + S1x4096.size a := by
  show i ∈ ((View.whole main_v2).slice (win0_7.rect t)).set ↔ _
  rw [View.set_slice_whole, Rect.mem_set_unit]
  exact Iff.rfl

/-- The four blocks tile the output array: lane `r` is in the block of the point whose lane-block index is `r / 4096`. -/
theorem cover7 (i : S1x16384.Idx) : ∃ t : Fin cfg0.N, (cfg0.win 7).flush t = true ∧ i ∈ ((cfg0.win 7).blk t).view.set := by
  have hi0 : (i 0).val < 1 := (i 0).isLt
  have hi1 : (i 1).val < 16384 := (i 1).isLt
  obtain ⟨t, ht⟩ := idx_onto ⟨(i 1).val / 4096, by omega⟩
  have q0 : win0_7.index t (0 : Fin 2) = 0 := congrFun ht 0
  have q1 : win0_7.index t (1 : Fin 2) = (i 1).val / 4096 := congrFun ht 1
  refine ⟨t, flush0_7 t, ?_⟩
  rw [mem_blk7]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 4096 ≤ (i 1).val ∧ (i 1).val < win0_7.index t (1 : Fin 2) * 4096 + 4096; omega

/-- THE OUTPUT ARRAY after the region: `laneResult` of the arrays as the region finds them. -/
theorem final7 (c : Dev nD) : (dats m 0 c).arrAt 7 cfg0.N
    = laneResult (V m c main_arg0) (V m c main_arg1) (V m c main_arg2) (V m c main_v0) (V m c main_arg4) (V m c main_v1) (V m c main_arg6) :=
  (dats m 0 c).arrAt_eq_of_cover 7 _ (fun t _ => flushed7_eq m c t) cover7

/-! ## The host reshapes around the region -/

/-- The first bias column the region is given is the first bias vector, reshaped. -/
theorem V_bias1 (c : Dev nD) :
    (V m c main_v0 : FVec Ideal S64x1 .f32) = shapeCast S64x1 (m ((c : Thread nD τ).loc main_arg3)) shapeCasts_S64_S64x1 := by
  show StableHlo.after hostOps0 (fun b => m (c, b)) (Proc.devRef .tc main_v0) = _
  after_results
  rfl

/-- The second bias column likewise. -/
theorem V_bias2 (c : Dev nD) :
    (V m c main_v1 : FVec Ideal S32x1 .f32) = shapeCast S32x1 (m ((c : Thread nD τ).loc main_arg5)) shapeCasts_S32_S32x1 := by
  show StableHlo.after hostOps0 (fun b => m (c, b)) (Proc.devRef .tc main_v1) = _
  after_results
  rfl

/-- The program's result is the output array after the region, reshaped from [1, 16384] to [16384, 1]. -/
theorem tail_result (c : Dev nD) :
    (Pipeline.afterTail₀ cfgs (dats m) 0 (V0 m) [hostOps1] c main_v3 : FVec Ideal S16384x1 .f32)
      = shapeCast S16384x1 ((dats m 0 c).arrAt 7 cfg0.N) shapeCasts_S1x16384_S16384x1 := by
  unfold Pipeline.afterTail₀
  show StableHlo.after hostOps1 _ (Proc.devRef .tc main_v3) = _
  after_results
  funext i
  exact congrArg (fun A => shapeCast S16384x1 A shapeCasts_S1x16384_S16384x1 i)
    (Pipeline.withArrays_arr spec0 launch0.win.arr_inj c (V0 m c) (fun w => (dats m 0 c).arrAt w cfg0.N) 7)

/-- Reshaping the lane-major result into a column, with the bias columns being the reshaped bias vectors, gives the
    network applied to every row: entry `(r, 0)` of the column is entry `(0, r)` of the row, and entry `(j, 0)` of a bias
    column is entry `j` of the bias vector. -/
theorem column_of_lanes (inp : FVec Ideal S16384x256 .f32) (We : FVec Ideal S256x64 .f32) (W1 : FVec Ideal S64x64 .f32)
    (b1 : FVec Ideal S64 .f32) (W2 : FVec Ideal S64x32 .f32) (b2 : FVec Ideal S32 .f32) (W3 : FVec Ideal S32x1 .f32) :
    shapeCast S16384x1 (laneResult inp We W1 (shapeCast S64x1 b1 shapeCasts_S64_S64x1) W2 (shapeCast S32x1 b2 shapeCasts_S32_S32x1) W3)
        shapeCasts_S1x16384_S16384x1
      = Cert.Mlp.G inp We W1 b1 W2 b2 W3 := by
  funext i
  obtain ⟨r, u, rfl⟩ : ∃ (r : Fin 16384) (u : Fin 1), i = ix2 r u := ⟨i 0, i 1, eq_ix2 i⟩
  have hu : u = 0 := Subsingleton.elim _ _
  subst hu
  have hb1 : (fun j : Fin 64 => shapeCast S64x1 b1 shapeCasts_S64_S64x1 (ix2 j (0 : Fin 1))) = fun j => b1 (ix1 j) :=
    funext fun j => shapeCast_apply b1 shapeCasts_S64_S64x1 (ix2 j (0 : Fin 1)) (ix1 j) (by
      rw [Shape.rowMajor_val_one, Shape.rowMajor_val_two]
      show j.val = j.val * 1 + 0
      omega)
  have hb2 : (fun j : Fin 32 => shapeCast S32x1 b2 shapeCasts_S32_S32x1 (ix2 j (0 : Fin 1))) = fun j => b2 (ix1 j) :=
    funext fun j => shapeCast_apply b2 shapeCasts_S32_S32x1 (ix2 j (0 : Fin 1)) (ix1 j) (by
      rw [Shape.rowMajor_val_one, Shape.rowMajor_val_two]
      show j.val = j.val * 1 + 0
      omega)
  rw [shapeCast_apply _ shapeCasts_S1x16384_S16384x1 (ix2 r (0 : Fin 1)) (ix2 (0 : Fin 1) r) (by
      rw [Shape.rowMajor_val_two, Shape.rowMajor_val_two]
      show 0 * 16384 + r.val = r.val * 1 + 0
      omega)]
  unfold laneResult Cert.Mlp.G
  rw [hb1, hb2]

/-- The program's result, as the network of the argument arrays. -/
theorem result_eq (c : Dev nD) :
    (Pipeline.afterTail₀ cfgs (dats m) 0 (V0 m) [hostOps1] c main_v3 : FVec Ideal S16384x1 .f32)
      = Cert.Mlp.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [tail_result, final7, V_bias1, V_bias2, V_main_arg0, V_main_arg1, V_main_arg2, V_main_arg4, V_main_arg6]
  exact column_of_lanes _ _ _ _ _ _ _

/-! ## The run, read -/

/-- Every weakly fair execution of the idealized kernel program terminates with its result at the network of the
    argument arrays and the argument arrays unchanged. -/
theorem run : θ_run defs (onTc (τ := τ) (main (F := Ideal))) ⟨m, fun _ => 0, ρ⟩ fun r => ∀ c : Dev nD,
      r.2.mem ((c.tc : Thread nD τ).loc main_v3) = Cert.Mlp.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.KValue

end
-- ==== Proof.RefValue.lean ====
/-
  The reference computes the network of MlpSpec.lean.

  The reference's result is a chain of host operations: a product, the positive part against a broadcast zero, a
  product, a bias row broadcast over all rows, a sum, the positive part, and so on. Read one operation at a time
  at one entry, each stage depends on ONE row of the stage before it, so the chain at entry `(r, 0)` of the result is
  the row function of row `r` of the input. The stages' index functions are identified with indices built from
  coordinates, the zero word is the extended real `0`, and the two sides are then the same term.
-/
import proofs.«116276_g9534827397533_cont_9to1c4b_304_18_alg».proof.Proof.Gen.ReferenceIdeal.Read
import proofs.«116276_g9534827397533_cont_9to1c4b_304_18_alg».proof.Proof.MlpSpec

noncomputable section

namespace Cert.ReferenceIdeal.RefValue

open Idealize.ShloMosaic Idealize.ShloMosaic.ValueIdx Cert.ReferenceIdeal Cert.ReferenceIdeal.Gen Cert.ReferenceIdeal.Read

/-! ## The stages' index functions, as indices built from coordinates -/

theorem lidx0 (r : Fin 16384) (j : Fin 64) (k : Fin 256) : lidx_main_v0 (ix2 r j) k = ix2 r k :=
  funext fun a => Fin.ext (by match a with | ⟨0, _⟩ => rfl | ⟨1, _⟩ => rfl)
theorem ridx0 (r : Fin 16384) (j : Fin 64) (k : Fin 256) : ridx_main_v0 (ix2 r j) k = ix2 k j :=
  funext fun a => Fin.ext (by match a with | ⟨0, _⟩ => rfl | ⟨1, _⟩ => rfl)
theorem lidx2 (r : Fin 16384) (j : Fin 64) (k : Fin 64) : lidx_main_v2 (ix2 r j) k = ix2 r k :=
  funext fun a => Fin.ext (by match a with | ⟨0, _⟩ => rfl | ⟨1, _⟩ => rfl)
theorem ridx2 (r : Fin 16384) (j : Fin 64) (k : Fin 64) : ridx_main_v2 (ix2 r j) k = ix2 k j :=
  funext fun a => Fin.ext (by match a with | ⟨0, _⟩ => rfl | ⟨1, _⟩ => rfl)
theorem lidx7 (r : Fin 16384) (j : Fin 32) (k : Fin 64) : lidx_main_v7 (ix2 r j) k = ix2 r k :=
  funext fun a => Fin.ext (by match a with | ⟨0, _⟩ => rfl | ⟨1, _⟩ => rfl)
theorem ridx7 (r : Fin 16384) (j : Fin 32) (k : Fin 64) : ridx_main_v7 (ix2 r j) k = ix2 k j :=
  funext fun a => Fin.ext (by match a with | ⟨0, _⟩ => rfl | ⟨1, _⟩ => rfl)
theorem lidx12 (r : Fin 16384) (j : Fin 1) (k : Fin 32) : lidx_main_v12 (ix2 r j) k = ix2 r k :=
  funext fun a => Fin.ext (by match a with | ⟨0, _⟩ => rfl | ⟨1, _⟩ => rfl)
theorem ridx12 (r : Fin 16384) (j : Fin 1) (k : Fin 32) : ridx_main_v12 (ix2 r j) k = ix2 k j :=
  funext fun a => Fin.ext (by match a with | ⟨0, _⟩ => rfl | ⟨1, _⟩ => rfl)
/-- The first bias, broadcast to a row and then over all rows, is read at its column. -/
theorem bidx1 (r : Fin 16384) (j : Fin 64) : idx_main_v3 (idx_main_v4 (ix2 r j)) = ix1 j :=
  funext fun a => Fin.ext (by match a with | ⟨0, _⟩ => rfl)
/-- The second bias likewise. -/
theorem bidx2 (r : Fin 16384) (j : Fin 32) : idx_main_v8 (idx_main_v9 (ix2 r j)) = ix1 j :=
  funext fun a => Fin.ext (by match a with | ⟨0, _⟩ => rfl)

/-! ## The three activations and the result, each at one entry -/

variable (x0 : FVec Ideal S16384x256 .f32) (x1 : FVec Ideal S256x64 .f32) (x2 : FVec Ideal S64x64 .f32)
  (x3 : FVec Ideal S64 .f32) (x4 : FVec Ideal S64x32 .f32) (x5 : FVec Ideal S32 .f32) (x6 : FVec Ideal S32x1 .f32)

/-- The embedding at row `r`, feature `j`: the positive part of the row times the embedding weights. -/
theorem embed_apply (r : Fin 16384) (j : Fin 64) :
    val_main_v1 (F := Ideal) x0 x1 (ix2 r j) = max (Cert.Mlp.lin (fun k => x0 (ix2 r k)) x1 j) 0 := by
  rw [val_main_v1_apply, val_main_v0_apply, val_main_call0_v0_apply, val_main_call0_cst_apply]
  simp only [lidx0, ridx0, Ideal.maximumf_def, Ideal.ofBits_def, Ideal.ofBits_zero_f32]
  rfl

/-- The first hidden activation at row `r`, feature `j`. -/
theorem hidden1_apply (r : Fin 16384) (j : Fin 64) :
    val_main_v6 (F := Ideal) x0 x1 x2 x3 (ix2 r j)
      = max (Cert.Mlp.lin (fun a => val_main_v1 (F := Ideal) x0 x1 (ix2 r a)) x2 j + x3 (ix1 j)) 0 := by
  rw [val_main_v6_apply, val_main_v5_apply, val_main_v2_apply, val_main_v4_apply, val_main_v3_apply,
    val_main_call1_v0_apply, val_main_call1_cst_apply]
  simp only [lidx2, ridx2, bidx1, Ideal.maximumf_def, Ideal.addf_def, Ideal.ofBits_def, Ideal.ofBits_zero_f32]
  rfl

/-- The second hidden activation at row `r`, feature `j`. -/
theorem hidden2_apply (r : Fin 16384) (j : Fin 32) :
    val_main_v11 (F := Ideal) x0 x1 x2 x3 x4 x5 (ix2 r j)
      = max (Cert.Mlp.lin (fun a => val_main_v6 (F := Ideal) x0 x1 x2 x3 (ix2 r a)) x4 j + x5 (ix1 j)) 0 := by
  rw [val_main_v11_apply, val_main_v10_apply, val_main_v7_apply, val_main_v9_apply, val_main_v8_apply,
    val_main_call2_v0_apply, val_main_call2_cst_apply]
  simp only [lidx7, ridx7, bidx2, Ideal.maximumf_def, Ideal.addf_def, Ideal.ofBits_def, Ideal.ofBits_zero_f32]
  rfl

/-- The result at row `r`: the second hidden activation of that row times the output weights. -/
theorem result_apply (r : Fin 16384) (u : Fin 1) :
    val_main_v12 (F := Ideal) x0 x1 x2 x3 x4 x5 x6 (ix2 r u)
      = Cert.Mlp.lin (fun a => val_main_v11 (F := Ideal) x0 x1 x2 x3 x4 x5 (ix2 r a)) x6 u := by
  rw [val_main_v12_apply]
  simp only [lidx12, ridx12]
  rfl

/-- The reference's result array is the network applied to every row of the input. -/
theorem result_eq :
    val_main_v12 (F := Ideal) x0 x1 x2 x3 x4 x5 x6 = Cert.Mlp.G x0 x1 x2 x3 x4 x5 x6 := by
  funext i
  obtain ⟨r, u, rfl⟩ : ∃ (r : Fin 16384) (u : Fin 1), i = ix2 r u := ⟨i 0, i 1, eq_ix2 i⟩
  have hu : u = 0 := Subsingleton.elim _ _
  subst hu
  rw [result_apply]
  unfold Cert.Mlp.G Cert.Mlp.row
  refine congrArg (fun h => Cert.Mlp.lin h x6 0) (funext fun a2 => ?_)
  rw [hidden2_apply]
  refine congrArg (fun h => max (Cert.Mlp.lin h x4 a2 + x5 (ix1 a2)) 0) (funext fun a1 => ?_)
  rw [hidden1_apply]
  refine congrArg (fun h => max (Cert.Mlp.lin h x2 a1 + x3 (ix1 a1)) 0) (funext fun a0 => ?_)
  exact embed_apply x0 x1 _ a0

end Cert.ReferenceIdeal.RefValue

end
-- ==== Proof.lean ====
/-
  The kernel and its reference compute the same four-layer network.

  Both programs take an input of 16384 rows of 256 numbers and push every row through
      e = (x · W_embed)⁺,   h₁ = (e · W₁ + b₁)⁺,   h₂ = (h₁ · W₂ + b₂)⁺,   out = h₂ · W₃,
  where `(·)⁺` is the positive part `max · 0`. The reference does this with whole-array host operations. The kernel
  works on blocks of 4096 rows, keeps every activation transposed (features first, rows along the lanes), receives
  the biases as columns, writes a [1, 16384] row of results and reshapes it to [16384, 1] afterwards.
  Read on the extended reals every matrix product is a plain finite sum, a change of tiling or of the order in which
  blocks are visited changes nothing, and the only difference left between the two programs is the order of the two
  factors inside each product (weight times activation against activation times weight). Multiplication on the
  extended reals is commutative, so the two results are equal entry by entry, for all inputs: the finiteness
  precondition is never used.

  The modules: MlpSpec (the network as one function `G` of the argument arrays), LibContract (a one-axis contraction
  as a sum over its extent), KernelDots and KernelPayload (the value the kernel body stores, lane by lane, is the
  network of the block's rows), KernelValue (the four blocks tile the output, and the reshapes around the region give
  `G`), RefValue (the reference's chain of operations is `G`). The three frames are the generated ones; the
  idealization rewrote nothing, so its conjunct is `True`.
-/
import proofs.«116276_g9534827397533_cont_9to1c4b_304_18_alg».proof.Defs
import proofs.«116276_g9534827397533_cont_9to1c4b_304_18_alg».proof.Proof.Gen.Kernel
import proofs.«116276_g9534827397533_cont_9to1c4b_304_18_alg».proof.Proof.Gen.Kernel.Skeleton
import proofs.«116276_g9534827397533_cont_9to1c4b_304_18_alg».proof.Proof.Gen.Kernel.Launch
import proofs.«116276_g9534827397533_cont_9to1c4b_304_18_alg».proof.Proof.Gen.Kernel.Points
import proofs.«116276_g9534827397533_cont_9to1c4b_304_18_alg».proof.Proof.Gen.Kernel.Frame
import proofs.«116276_g9534827397533_cont_9to1c4b_304_18_alg».proof.Proof.Gen.KernelIdeal
import proofs.«116276_g9534827397533_cont_9to1c4b_304_18_alg».proof.Proof.Gen.KernelIdeal.Skeleton
import proofs.«116276_g9534827397533_cont_9to1c4b_304_18_alg».proof.Proof.Gen.KernelIdeal.Launch
import proofs.«116276_g9534827397533_cont_9to1c4b_304_18_alg».proof.Proof.Gen.KernelIdeal.Points
import proofs.«116276_g9534827397533_cont_9to1c4b_304_18_alg».proof.Proof.Gen.KernelIdeal.Frame
import proofs.«116276_g9534827397533_cont_9to1c4b_304_18_alg».proof.Proof.Gen.ReferenceIdeal
import proofs.«116276_g9534827397533_cont_9to1c4b_304_18_alg».proof.Proof.Gen.ReferenceIdeal.Run
import proofs.«116276_g9534827397533_cont_9to1c4b_304_18_alg».proof.Proof.Gen.ReferenceIdeal.Read
import proofs.«116276_g9534827397533_cont_9to1c4b_304_18_alg».proof.Proof.Gen.Pre_finite_inputs
import proofs.«116276_g9534827397533_cont_9to1c4b_304_18_alg».proof.Proof.KernelValue
import proofs.«116276_g9534827397533_cont_9to1c4b_304_18_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seven arguments, the kernel's result array and the reference's are both the
    network `G` of those arguments. -/
theorem algebraic : Cert.algebraic_KernelIdeal_ReferenceIdeal := by
  intro m ρ m' ρ' _ hagree
  refine ⟨fun c => Cert.Mlp.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v12_eq, Cert.ReferenceIdeal.RefValue.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
